-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_9 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_8 : BitVec 32 := 16#32
  let v17 : BitVec 32 := Scalar.muli v9 c16_i32_8
  let v18 : BitVec 32 := Scalar.addi c0_i32_9 v17
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v19 : BitVec 32 := Scalar.muli v5 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel

variable [Facts₀]

class Facts : Prop extends Facts₀ where

variable [Facts]
-- ==== Proof.Partner.lean ====
/-
  The exchange partner of a device on the 2 x 4 x 4 mesh: the device with the same y and z coordinates and the
  other x coordinate. Devices are numbered row-major, x outermost, so the partner of device c is c + 16
  when c < 16 and c - 16 otherwise: an involution without fixed points.
-/
import proofs.«900505_g7700000000000506_dist_ar_v7x_xyz2x4x4_x_m256_n256_f32_1_alg».proof.Proof.Gen.KernelIdeal
import proofs.«900505_g7700000000000506_dist_ar_v7x_xyz2x4x4_x_m256_n256_f32_1_alg».proof.Proof.Gen.Kernel

namespace Cert.Exchange

open Idealize.ShloMosaic

/-- The device across the mesh's first axis. -/
def partner (c : Fin 32) : Fin 32 := ⟨(c.val + 16) % 32, Nat.mod_lt _ (by decide)⟩

theorem partner_partner (c : Fin 32) : partner (partner c) = c := by revert c; decide
theorem partner_ne (c : Fin 32) : partner c ≠ c := by revert c; decide
theorem partner_val (c : Fin 32) : (partner c).val = (c.val + 16) % 32 := rfl
/-- The partner sits in the other half of the first axis. -/
theorem partner_div (c : Fin 32) : (partner c).val / 16 = 1 - c.val / 16 := by revert c; decide
theorem partner_mod (c : Fin 32) : (partner c).val % 16 = c.val % 16 := by revert c; decide

def swap : Fin 32 ≃ Fin 32 := ⟨partner, partner, partner_partner, partner_partner⟩

end Cert.Exchange
-- ==== Proof.Kernel.Proto.lean ====
/-
  The exchange protocol of the all-reduce across the mesh's first axis, for one program at any float instance.

  Every device c has a partner p(c): the device with the other coordinate on the first mesh axis (an involution).
  Device c (1) signals one unit onto p(c)'s barrier semaphore, (2) waits one unit on its own, (3) copies its block of
  the argument into p(c)'s landing buffer, crediting its own send semaphore and p(c)'s receive semaphore, (4) waits for
  its send semaphore, (5) waits for its receive semaphore, (6) stores the sum of its block and the landing buffer.

  Three cells per device, one round each, one duty each:
    barrier cell of c : paid by p(c)'s signal, 1 unit; it hands c the partner's landing buffer (at some contents) and the
                        fact that the partner's receive cell has reached round 0 (what c's copy into it needs);
    send cell of c    : paid by c's own copy, the block's credit; it hands c its staged block back;
    receive cell of c : paid by p(c)'s copy, the block's credit; it hands c its landing buffer holding p(c)'s block.
  A device waits on its barrier cell while it still owes the partner's receive cell: receive cells sit above barrier
  cells in the order of levels, and nothing is owed at the two later waits.
-/
import proofs.«900505_g7700000000000506_dist_ar_v7x_xyz2x4x4_x_m256_n256_f32_1_alg».proof.Proof.Gen.Kernel
import proofs.«900505_g7700000000000506_dist_ar_v7x_xyz2x4x4_x_m256_n256_f32_1_alg».proof.Proof.Gen.Kernel.Skeleton
import proofs.«900505_g7700000000000506_dist_ar_v7x_xyz2x4x4_x_m256_n256_f32_1_alg».proof.Proof.Gen.Kernel.Launch
import proofs.«900505_g7700000000000506_dist_ar_v7x_xyz2x4x4_x_m256_n256_f32_1_alg».proof.Proof.Partner
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty a round: duties are Unit) -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The partner -/

abbrev peer (c : Dev nD) : Dev nD := Cert.Exchange.partner c

theorem peer_peer (c : Dev nD) : peer (peer c) = c := Cert.Exchange.partner_partner c

/-- Both device chains of the body, the signal's and the copy's, name the partner. -/
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel

def swap : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .f32 := Memref.whole cc0_stg1_0
abbrev rM : Memref sig .tc .vmem S256x256 .f32 := Memref.whole cc0_scratch0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the exchange's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .f32).view.dmaCredit
theorem N_pos : 0 < N := View.dmaCredit_pos _ (by decide)

/-! ## Contents -/

/-- Device c's block of the argument, as its staging buffer holds it. -/
def xblk (c : Dev nD) : (cc0_stg0_0 : Ref sig .tc).ty.Contents (Elt F) :=
  (win0_0.blk (0 : Fin 1)).view.read (Elt F) (m ((c : Thread nD τ).loc main_arg0))

/-- What lands in device c's landing buffer: the partner's block. -/
def landed (c : Dev nD) : Buf (Elt F) ((rM : Memref sig .tc .vmem S256x256 .f32).view.loc (c : Thread nD τ)) := xblk m (peer c)

omit [FloatOps F] in
/-- A whole buffer written whole from a whole buffer holds the source's contents, whatever it held. -/
theorem landed_eq (c : Dev nD) (fd : Buf (Elt F) ((rM : Memref sig .tc .vmem S256x256 .f32).view.loc (c : Thread nD τ))) (fs : (cc0_stg0_0 : Ref sig .tc).ty.Contents (Elt F)) :
    (rM : Memref sig .tc .vmem S256x256 .f32).view.write (Elt F) fd ((xM : Memref sig .tc .vmem S256x256 .f32).view.read (Elt F) fs) Finset.univ = fs := by
  show (View.whole cc0_scratch0).write (Elt F) fd ((View.whole cc0_stg0_0).read (Elt F) fs) Finset.univ = fs
  rw [View.read_whole]
  exact View.write_whole_univ _ _ _

def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f
def xPts (c : Dev nD) : sProp 𝕄 :=
  (xM : Memref sig .tc .vmem S256x256 .f32).view.loc (c : Thread nD τ) ↦[(xM : Memref sig .tc .vmem S256x256 .f32).view.set]{fullShare} xblk m c

omit [FloatOps F] in
instance scrPts_storable (c : Dev nD) (f) : BI.Storable (upEmb : UEmb _ 𝕄) (scrPts (F := F) c f) := by unfold scrPts; infer_instance
omit [FloatOps F] in
instance xPts_storable (c : Dev nD) : BI.Storable (upEmb : UEmb _ 𝕄) (xPts (F := F) m c) := by unfold xPts; infer_instance

omit [FloatOps F] in
theorem scr_set : (rM : Memref sig .tc .vmem S256x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
omit [FloatOps F] in
theorem xPts_eq (c : Dev nD) : xPts m c = (((c : Thread nD τ).loc cc0_stg0_0) ↦{fullShare} xblk m c : sProp 𝕄) := by
  unfold xPts; rw [View.set_whole]

/-! ## The schedule -/

/-- What the partner's signal hands device c: the partner's landing buffer and that the partner's receive cell has
    reached round 0. -/
def barPay (c : Dev nD) : sProp 𝕄 := iprop((∃ f, scrPts (peer c) f) ∗ reached EX (recvCell (peer c)) 0)
def recvPay (c : Dev nD) : sProp 𝕄 := scrPts c (landed m c)
def sendPay (c : Dev nD) : sProp 𝕄 := xPts m c

abbrev IsExch (g : GSem nD τ sig) : Prop := g.1.2 = .tc ∧ (g.2 = .reg barS ∨ g.2 = .dma sendS.sem ∨ g.2 = .dma recvS.sem)

/-- One round, round 0, one duty a cell: a barrier cell's is one unit, a send or receive cell's the block's credit. -/
def sched : Rounds.Schedule (GSem nD τ sig) Unit 𝕄 where
  duties g r := if r = 0 ∧ IsExch g then Finset.univ else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (sched (F := F) m).duties (barCell c) 0 = Finset.univ := by dsimp only [sched]; exact if_pos ⟨rfl, rfl, .inl rfl⟩
omit [FloatOps F] in
theorem duties_send : (sched (F := F) m).duties (sendCell c) 0 = Finset.univ := by dsimp only [sched]; exact if_pos ⟨rfl, rfl, .inr (.inl rfl)⟩
omit [FloatOps F] in
theorem duties_recv : (sched (F := F) m).duties (recvCell c) 0 = Finset.univ := by dsimp only [sched]; exact if_pos ⟨rfl, rfl, .inr (.inr rfl)⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
theorem expect_bar : (sched (F := F) m).expect (barCell c) 0 = 1 := by
  unfold Schedule.expect Schedule.amountOf
  rw [duties_bar, Finset.univ_unique, Finset.sum_singleton, amount_bar]
omit [FloatOps F] in
theorem expect_send : (sched (F := F) m).expect (sendCell c) 0 = N := by
  unfold Schedule.expect Schedule.amountOf
  rw [duties_send, Finset.univ_unique, Finset.sum_singleton, amount_send]
omit [FloatOps F] in
theorem expect_recv : (sched (F := F) m).expect (recvCell c) 0 = N := by
  unfold Schedule.expect Schedule.amountOf
  rw [duties_recv, Finset.univ_unique, Finset.sum_singleton, amount_recv]

omit [FloatOps F] in
theorem payload_bar (d : Unit) : (sched (F := F) m).payload (barCell c) 0 d = barPay c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]

omit [FloatOps F] in
/-- The rest of a cell's one-duty round, nothing taken, is the duty's payload. -/
theorem rest_bar : bigSep ((sched (F := F) m).duties (barCell c) 0 \ ∅) (fun d => (sched (F := F) m).payload (barCell c) 0 d) = barPay c := by
  rw [Finset.sdiff_empty, duties_bar, Finset.univ_unique, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, Finset.univ_unique, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, Finset.univ_unique, bigSep_singleton, payload_recv]

end Sched

/-! ## What each device owes at launch; the levels -/

/-- Device c owes the partner's receive cell the block's credit and the partner's barrier cell one unit (the signal,
    issued first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging cell, or the send cell, may be waited on whatever of its launch debt a device still owes: they sit at
    level 0, below barrier and receive cells. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c: its block plus the partner's. -/
def outAt (c : Dev nD) : (cc0_stg1_0 : Ref sig .tc).ty.Contents (Elt F) := k0_pay1 (xblk m c) (xblk m (peer c))

/-- The cells' invariants device c's body opens, under the names K the launch allocated them at: its own three, the
    partner's barrier cell (its signal) and the partner's receive cell (its copy). -/
def invs (K : Dev nD × Fin 3 → ℕ) (c : Dev nD) : sProp 𝕄 :=
  iprop(cellInv EX (sched m) (K (c, 0)) (barCell c) ∗ cellInv EX (sched m) (K (c, 1)) (sendCell c) ∗ cellInv EX (sched m) (K (c, 2)) (recvCell c)
    ∗ cellInv EX (sched m) (K (peer c, 0)) (barCell (peer c)) ∗ cellInv EX (sched m) (K (peer c, 2)) (recvCell (peer c)))

instance invs_persistent (K : Dev nD × Fin 3 → ℕ) (c : Dev nD) : BI.Persistent (invs m K c) := by unfold invs; infer_instance

/-- The exchange's ghost state device c starts from: the invariants; its positions at round 0 of its three cells; the
    reached-marks of the two cells of the partner it pays and of its own send and receive cells; the three duty tokens it
    pays with: the partner's barrier duty, the partner's receive duty, its own send duty. -/
def ghost (K : Dev nD × Fin 3 → ℕ) (c : Dev nD) : sProp 𝕄 :=
  iprop(invs m K c
    ∗ atPos EX (barCell c) 0 ∅ 0 ∗ atPos EX (sendCell c) 0 ∅ 0 ∗ atPos EX (recvCell c) 0 ∅ 0
    ∗ reached EX (barCell (peer c)) 0 ∗ reached EX (recvCell (peer c)) 0 ∗ reached EX (sendCell c) 0 ∗ reached EX (recvCell c) 0
    ∗ dutyTok EX (barCell (peer c)) 0 () ∗ dutyTok EX (recvCell (peer c)) 0 () ∗ dutyTok EX (sendCell c) 0 ())

/-- What device c's body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the point: the landing buffer holding the partner's block, the two own cells at zero, closed (the barrier cell
    is the runtime's: nothing to hand back). -/
def Φ₁ (c : Dev nD) : sProp 𝕄 := iprop(scrPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Hand

end
-- ==== Proof.Kernel.Body.lean ====
/-
  One device's body of the exchange, run once at a symbolic device c: from the exchange's ghost state, the staged block
  and the output's staging buffer to the landing buffer holding the partner's block, the output's staging buffer
  holding the sum of the two blocks, and the device's two own cells closed at zero.
-/
import proofs.«900505_g7700000000000506_dist_ar_v7x_xyz2x4x4_x_m256_n256_f32_1_alg».proof.Proof.Kernel.Proto
import Idealize.ShloMosaic.Lib.Pipeline.FrameBody
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xblk m c) ∗ stg c cc0_stg1_0 (outAt m c))

/-! The schedule's tables with each payload spelt as the points-to it is, the partner's cells already resolved through
    the involution. -/

omit [FloatOps F] in
theorem pay_bar (c : Dev nD) (d : Unit) : (sched (F := F) m).payload (barCell c) 0 d
    = iprop((∃ f, ((View.loc ((peer c : Dev nD) : Thread nD τ) (Memref.whole cc0_scratch0).view) ↦{fullShare} f : sProp 𝕄)) ∗ reached EX (recvCell (peer c)) 0) := by
  rw [payload_bar]; unfold barPay scrPts; rw [scr_set]
omit [FloatOps F] in
theorem pay_bar_peer (c : Dev nD) (d : Unit) : (sched (F := F) m).payload (barCell (peer c)) 0 d
    = iprop((∃ f, ((View.loc ((c : Dev nD) : Thread nD τ) (Memref.whole cc0_scratch0).view) ↦{fullShare} f : sProp 𝕄)) ∗ reached EX (recvCell c) 0) := by
  rw [pay_bar, peer_peer]
omit [FloatOps F] in
theorem pay_send (c : Dev nD) (d : Unit) : (sched (F := F) m).payload (sendCell c) 0 d
    = ((View.loc ((c : Dev nD) : Thread nD τ) (Memref.whole cc0_stg0_0).view) ↦{fullShare} xblk m c : sProp 𝕄) := by
  rw [payload_send]; unfold sendPay xPts; rw [View.set_whole]
omit [FloatOps F] in
theorem pay_recv (c : Dev nD) (d : Unit) : (sched (F := F) m).payload (recvCell c) 0 d
    = ((View.loc ((c : Dev nD) : Thread nD τ) (Memref.whole cc0_scratch0).view) ↦{fullShare} xblk m (peer c) : sProp 𝕄) := by
  rw [payload_recv]; unfold recvPay scrPts landed; rw [scr_set]
omit [FloatOps F] in
theorem pay_recv_peer (c : Dev nD) (d : Unit) : (sched (F := F) m).payload (recvCell (peer c)) 0 d
    = ((View.loc ((peer c : Dev nD) : Thread nD τ) (Memref.whole cc0_scratch0).view) ↦{fullShare} xblk m c : sProp 𝕄) := by
  rw [pay_recv, peer_peer]

/-- The output's staging buffer spelt through its view. -/
def oPts (c : Dev nD) (g : Buf (Elt F) ((oM : Memref sig .tc .vmem S256x256 .f32).view.loc (c : Thread nD τ))) : sProp 𝕄 :=
  (oM : Memref sig .tc .vmem S256x256 .f32).view.loc (c : Thread nD τ) ↦[(oM : Memref sig .tc .vmem S256x256 .f32).view.set]{fullShare} g
omit [FloatOps F] in
theorem oPts_eq (c : Dev nD) (g : Buf (Elt F) ((c : Thread nD τ).loc cc0_stg1_0)) :
    oPts c g = (((c : Thread nD τ).loc cc0_stg1_0) ↦{fullShare} g : sProp 𝕄) := by unfold oPts; rw [View.set_whole]

omit [FloatOps F] in
theorem unit_mem_univ (d : Unit) : d ∈ (Finset.univ : Finset Unit) := Finset.mem_univ d

attribute [local sl_rounds] duties_bar duties_send duties_recv amount_bar amount_send amount_recv expect_bar expect_send expect_recv
  pay_bar_peer pay_recv_peer pay_bar pay_send pay_recv unit_mem_univ

/-! ## The five remote effects, each over this protocol's cells

Each lemma below is one effect of the body read against the protocol's table: which duty it pays or which round it
takes, what it hands over or receives, and what the device owes before and after. -/

omit [FloatOps F] in
/-- The staged block and the landing buffer have one shape and element type: their transfers carry the same credit. -/
theorem credit_x : (xM : Memref sig .tc .vmem S256x256 .f32).view.dmaCredit = N := rfl

/-- Effect 1, the signal. Device c pays the one duty of its partner's barrier cell: it hands the partner its own landing
    buffer, at whatever it holds, and the fact that its own receive cell stands at round 0, so that the partner may copy
    into it. The unit comes off what c owes; the receive credit stays owed. -/
theorem signal_partner (c : Dev nD) (n : ℕ) (hn : n = 1) (f0 : Buf (Elt F) ((rM : Memref sig .tc .vmem S256x256 .f32).view.loc (c : Thread nD τ))) (W : Waits sig Unit)
    {α : Type} {Q : α → sProp 𝕄} {k : PUnit → Prog (TpuEff nD τ sig (Elt F) Λ₀ .tc) α} :
    iprop(cellInv EX (sched m) (K (peer c, 0)) (barCell (peer c))
        ∗ owes (c : Thread nD τ) (tallyAt (recvCell (peer c)) () N + tallyAt (barCell (peer c)) () 1) W
        ∗ dutyTok EX (barCell (peer c)) 0 () ∗ scrPts c f0 ∗ reached EX (recvCell c) 0 ∗ reached EX (barCell (peer c)) 0)
      ⊢ iprop((owes (c : Thread nD τ) (tallyAt (recvCell (peer c)) () N) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c : Thread nD τ) barS n) k) Q) := by
  subst hn
  have hpay : iprop(scrPts c f0 ∗ reached EX (recvCell c) 0) ⊢ (sched (F := F) m).payload (barCell (peer c)) 0 () := by
    rw [payload_bar]; unfold barPay; rw [peer_peer]
    iintro ⟨Hb, Hr⟩
    isplitl [Hb]; · iexists f0; iexact Hb
    iexact Hr
  iintro ⟨HI, HO, Ht, Hb, Hr, Hrb⟩
  iapply (Rounds.wp_signal 𝒱₀ EX (sched m) (c : Thread nD τ) none (dst := (peer c : Thread nD τ)) (sem := barS) (r := 0) (d := ()) (κ := K (peer c, 0))
    (by rw [duties_bar]; exact Finset.mem_univ ()) (amount_bar m (peer c) ()) () (tallyAt (recvCell (peer c)) () N) rfl)
  isplitl [HI]; · iexact HI
  isplitl [HO]; · iexact HO
  isplitl [Ht]; · iexact Ht
  isplitl [Hb Hr]
  · iapply hpay; isplitl [Hb] <;> iassumption
  iexact Hrb

/-- Effect 2, the wait on the own barrier cell. The device takes the whole of the cell's one round with the unit its
    partner owed it at launch; it still owes the partner's receive cell, which sits above barrier cells in the order of
    levels. It comes back with the partner's landing buffer and the round of the partner's receive cell. -/
theorem wait_barrier (c : Dev nD) (n : ℕ) (hn : n = 1) (W : Waits sig Unit)
    {α : Type} {Q : α → sProp 𝕄} {k : PUnit → Prog (TpuEff nD τ sig (Elt F) Λ₀ .tc) α} :
    iprop(cellInv EX (sched m) (K (c, 0)) (barCell c) ∗ cred (tallyAt (barCell c) () 1)
        ∗ owes (c : Thread nD τ) (tallyAt (recvCell (peer c)) () N) W ∗ levAts L lv ∗ atPos EX (barCell c) 0 ∅ 0)
      ⊢ iprop(((owes (c : Thread nD τ) (tallyAt (recvCell (peer c)) () N) (insert (SemLoc.reg barS, ()) W)
              ∗ (∃ fp, scrPts (peer c) fp) ∗ reached EX (recvCell (peer c)) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨HI, Hc, HO, Hlev, Hat⟩ Hk
  iapply (Rounds.wp_wait_rest_token 𝒱₀ EX (sched m) (c : Thread nD τ) none (sm := .reg barS) (k' := 1) (κ := K (c, 0))
    (fun Kc => wpE_semWait_eq (defs := defs₀ (F := F)) (𝒱 := 𝒱₀) (c := (c : Thread nD τ)) (bd := none) (E := Set.univ) Kc) (Set.mem_univ _) ()
    (O := tallyAt (recvCell (peer c)) () N) (W := W) (R := 0) (m := 0) (T := ∅) (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, -, -, Hpay⟩
  ihave Hp := (Entails.of_eq (rest_bar m c)) $$ Hpay
  unfold barPay
  icases Hp with ⟨Hb, Hr⟩
  ihave H := Hk $$ [HO Hb Hr]
  · isplitl [HO]; · iexact HO
    isplitl [Hb] <;> iassumption
  iexact H

/-- Effect 3, the transfer. The device chain of the copy names the partner (the target is a variable equal to it). The
    copy pays two duties at once: the device's own send duty with the staged block, which comes back at the send wait,
    and the partner's receive duty with the partner's landing buffer rewritten whole from the staged block: a whole buffer
    written whole holds the source, so the payload is the landing buffer holding this device's block. The receive credit
    comes off what the device owes, which is then nothing; the send credit comes to it as a token. -/
theorem send_block (c t : Dev nD) (ht : t = peer c)
    {hsc : (rM : Memref sig (Dev.tc t : Thread nD τ).2.kind .vmem S256x256 .f32).view.ref.isScScratch = false}
    {hsrc : (xM : Memref sig .tc .vmem S256x256 .f32).view.WordExact} {hdst : (rM : Memref sig .tc .vmem S256x256 .f32).view.WordExact}
    {hsem : DmaTarget.Typed .vmem (.dma recvS.sem) (.remote (Dev.tc t : Thread nD τ) (rM : Memref sig .tc .vmem S256x256 .f32) (.dma sendS.sem) hsc)}
    (fp : Buf (Elt F) ((rM : Memref sig .tc .vmem S256x256 .f32).view.loc (peer c : Thread nD τ))) (W : Waits sig Unit)
    {α : Type} {Q : α → sProp 𝕄} {k : PUnit → Prog (TpuEff nD τ sig (Elt F) Λ₀ .tc) α} :
    iprop(cellInv EX (sched m) (K (c, 1)) (sendCell c) ∗ cellInv EX (sched m) (K (peer c, 2)) (recvCell (peer c))
        ∗ xPts m c ∗ scrPts (peer c) fp ∗ owes (c : Thread nD τ) (tallyAt (recvCell (peer c)) () N) W
        ∗ dutyTok EX (sendCell c) 0 () ∗ reached EX (sendCell c) 0 ∗ dutyTok EX (recvCell (peer c)) 0 () ∗ reached EX (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.remote (Dev.tc t : Thread nD τ) rM (.dma sendS.sem) hsc) (.dma recvS.sem) hsrc hdst hsem) k) Q) := by
  subst ht
  have hland : ((rM : Memref sig .tc .vmem S256x256 .f32).view.loc (peer c : Thread nD τ) ↦[(rM : Memref sig .tc .vmem S256x256 .f32).view.set]{fullShare}
        ((rM : Memref sig .tc .vmem S256x256 .f32).view.write (Elt F) fp ((xM : Memref sig .tc .vmem S256x256 .f32).view.read (Elt F) (xblk m c)) Finset.univ) : sProp 𝕄)
      ⊢ (sched (F := F) m).payload (recvCell (peer c)) 0 () := by
    rw [payload_recv, landed_eq (peer c) fp (xblk m c)]; unfold recvPay scrPts landed; rw [peer_peer]
  unfold xPts scrPts
  exact Rounds.wp_send_pointsTo 𝒱₀ EX (sched m) (c : Thread nD τ) none (c' := (peer c : Thread nD τ)) (src := xM) (dst := rM)
    (fs := xblk m c) (fd := fp) (r₁ := 0) (r₂ := 0) (d₁ := ()) (d₂ := ()) (κ₁ := K (c, 1)) (κ₂ := K (peer c, 2))
    (by rw [duties_send]; exact Finset.mem_univ ()) (by rw [duties_recv]; exact Finset.mem_univ ())
    () () N rfl (amount_send m c ()) (amount_recv m (peer c) ()) 0 (zero_add _).symm (W := W)
    (by rw [payload_send]; unfold sendPay xPts; exact BI.Entails.refl _) hland

/-- Effect 4, the wait on the own send cell, owing nothing: the whole of its one round, paid by the credit the transfer
    returned; the staged block comes back. -/
theorem wait_send (c : Dev nD) (W : Waits sig Unit)
    {hs : (rM : Memref sig .tc .vmem S256x256 .f32).view.WordExact} {hd : (xM : Memref sig .tc .vmem S256x256 .f32).view.WordExact}
    {α : Type} {Q : α → sProp 𝕄} {k : PUnit → Prog (TpuEff nD τ sig (Elt F) Λ₀ .tc) α} :
    iprop(cellInv EX (sched m) (K (c, 1)) (sendCell c) ∗ cred (tallyAt (sendCell c) () N) ∗ owes (c : Thread nD τ) 0 W ∗ atPos EX (sendCell c) 0 ∅ 0)
      ⊢ iprop(((owes (c : Thread nD τ) 0 (insert (SemLoc.dma sendS.sem, ()) W) ∗ atPos EX (sendCell c) 1 ∅ 0 ∗ xPts m c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS.sem rM xM hs hd) k) Q) := by
  iintro ⟨HI, Hc, HO, Hat⟩ Hk
  iapply (Rounds.wp_wait_rest_token 𝒱₀ EX (sched m) (c : Thread nD τ) none (sm := .dma sendS.sem) (k' := (xM : Memref sig .tc .vmem S256x256 .f32).view.dmaCredit) (κ := K (c, 1))
    (fun Kc => wpE_waitDma2_eq (defs := defs₀ (F := F)) (𝒱 := 𝒱₀) (c := (c : Thread nD τ)) (bd := none) (E := Set.univ) Kc) (Set.mem_univ _) ()
    (O := 0) (W := W) (R := 0) (m := 0) (T := ∅) (by rw [Nat.zero_add, expect_send, credit_x])) $$ [HI Hc HO Hat]
  · isplitl [HI]; · iexact HI
    isplitl [Hc]; · rw [credit_x]; iexact Hc
    isplitl [HO]; · iexact HO
    isplitr; · rw [MayWait_zero]; iempintro
    iexact Hat
  iintro ⟨HO, Hat, -, Hpay⟩
  ihave Hp := (Entails.of_eq (rest_send m c)) $$ Hpay
  unfold sendPay
  ihave H := Hk $$ [HO Hat Hp]
  · isplitl [HO]; · iexact HO
    isplitl [Hat] <;> iassumption
  iexact H

/-- Effect 5, the wait on the own receive cell, owing nothing: the whole of its one round, paid by the credit the
    partner owed at launch; the landing buffer comes back holding the partner's block. -/
theorem wait_recv (c : Dev nD) (W : Waits sig Unit)
    {hs : (xM : Memref sig .tc .vmem S256x256 .f32).view.WordExact} {hd : (rM : Memref sig .tc .vmem S256x256 .f32).view.WordExact}
    {α : Type} {Q : α → sProp 𝕄} {k : PUnit → Prog (TpuEff nD τ sig (Elt F) Λ₀ .tc) α} :
    iprop(cellInv EX (sched m) (K (c, 2)) (recvCell c) ∗ cred (tallyAt (recvCell c) () N) ∗ owes (c : Thread nD τ) 0 W ∗ atPos EX (recvCell c) 0 ∅ 0)
      ⊢ iprop(((owes (c : Thread nD τ) 0 (insert (SemLoc.dma recvS.sem, ()) W) ∗ atPos EX (recvCell c) 1 ∅ 0 ∗ scrPts c (landed m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS.sem xM rM hs hd) k) Q) := by
  iintro ⟨HI, Hc, HO, Hat⟩ Hk
  iapply (Rounds.wp_wait_rest_token 𝒱₀ EX (sched m) (c : Thread nD τ) none (sm := .dma recvS.sem) (k' := N) (κ := K (c, 2))
    (fun Kc => wpE_waitDma2_eq (defs := defs₀ (F := F)) (𝒱 := 𝒱₀) (c := (c : Thread nD τ)) (bd := none) (E := Set.univ) Kc) (Set.mem_univ _) ()
    (O := 0) (W := W) (R := 0) (m := 0) (T := ∅) (by rw [Nat.zero_add, expect_recv])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c)) $$ Hpay
  unfold recvPay
  ihave H := Hk $$ [HO Hat Hp]
  · isplitl [HO]; · iexact HO
    isplitl [Hat] <;> iassumption
  iexact H

omit [FloatOps F] in
/-- A send or receive cell has no round after its first: its owner, having taken that round whole, closes it and keeps
    the counter at zero. -/
theorem close_own (c : Dev nD) (j : Fin 3) :
    iprop(cellInv EX (sched (F := F) m) (K (c, j)) (kcell (c, j)) ∗ atPos EX (kcell (c, j)) 1 ∅ 0) ⊢ (|={Set.univ}=> semVal (kcell (c, j)) 0 : sProp 𝕄) :=
  Rounds.cell_close EX (sched m) (Set.mem_univ _) (fun h => h) (duties_later m (kcell (c, j)))

omit [FloatOps F] in
theorem zero_off : (![0, 0] : Fin 2 → Nat) = fun _ => 0 := funext fun a => by fin_cases a <;> rfl

/-- What the one store leaves in the output's staging buffer. The store writes the whole buffer (the rectangle of the
    buffer's own sizes at offsets zero), so the buffer holds the stored value whatever it held; the stored value is the
    body's sum of its two loads, each of a whole buffer through that same rectangle, hence of the staged block and of the
    landing buffer's contents, which are the partner's block. -/
theorem stored_eq (c : Dev nD) (o : (cc0_stg1_0 : Ref sig .tc).ty.Contents (Elt F)) :
    (oM : Memref sig .tc .vmem S256x256 .f32).view.writes (Elt F) o
      [⟨Rect.unit (s := S256x256) ![0, 0] S256x256.size inb_S256x256_S256x256_0_0,
        k0_pay1
          ((xM : Memref sig .tc .vmem S256x256 .f32).view.readAt (Elt F) (Rect.unit (s := S256x256) ![0, 0] S256x256.size inb_S256x256_S256x256_0_0).toLoadRect (xblk m c))
          ((rM : Memref sig .tc .vmem S256x256 .f32).view.readAt (Elt F) (Rect.unit (s := S256x256) ![0, 0] S256x256.size inb_S256x256_S256x256_0_0).toLoadRect (landed m c))⟩]
      = outAt m c := by
  have hwhole : ∀ g : (cc0_stg1_0 : Ref sig .tc).ty.Contents (Elt F), (oM : Memref sig .tc .vmem S256x256 .f32).view.read (Elt F) g = g :=
    fun g => View.read_whole _ g
  refine (hwhole _).symm.trans ?_
  rw [View.read_writes_eq_canon _ _ _ (fun y => ⟨_, List.mem_singleton.mpr rfl, by
      rw [Rect.mem_set_unit]; intro a; subst_vars; constructor <;> simp [zero_off]⟩),
    View.canon_unit_zero zero_off]
  unfold outAt landed
  simp only [View.readAt_eq_ld, Memref.view_whole, View.read_whole, View.ld_unit_zero (S := S256x256) zero_off]

set_option maxHeartbeats 1600000 in
/-- The body on device c, read against the protocol: pay the partner's barrier duty, take the own barrier round, send the
    block, take the send round and the receive round, close the two own cells, then add the two blocks into the output's
    staging buffer. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId, dev1_eq c]
  unfold bodyPre ghost invs
  iintro ⟨⟨⟨⟨⟨#Ibar, #Isend, #Irecv, #IbarP, #IrecvP⟩, PosBar, PosSend, PosRecv, #RbarP, #RrecvP, #Rsend, #Rrecv, TbarP, TrecvP, Tsend⟩,
      CrBar, CrRecv, #Lev, ⟨%f0, Land⟩⟩, Owe, ⟨%d0, %x0, %hx0, Stg⟩, ⟨%d1, %o0, %ho0, Out⟩⟩, Post⟩
  -- the staged block is the device's block: the input window is fetched at the one point
  have hblk : x0 = xblk m c := by rw [hx0]; unfold Dat.before; rw [if_pos (fetch_0 t₀)]; rfl
  subst hblk
  unfold Dat.owesAt Pipeline.owesWithin
  icases Owe with ⟨%W, %hW, Owe⟩
  rw [show (dats m 0 c).owed t₀.castSucc = O₀ c from rfl]
  unfold O₀
  -- 1: the signal
  iapply (signal_partner m K c _ (by decide) f0 W) $$ [Owe TbarP Land]
  · isplitr; · iexact IbarP
    isplitl [Owe]; · iexact Owe
    isplitl [TbarP]; · iexact TbarP
    isplitl [Land]; · iexact Land
    isplitr; · iexact Rrecv
    iexact RbarP
  iintro Owe
  -- 2: the barrier round
  iapply (wait_barrier m K c _ (by decide) W) $$ [CrBar Owe PosBar]
  · isplitr; · iexact Ibar
    isplitl [CrBar]; · iexact CrBar
    isplitl [Owe]; · iexact Owe
    isplitr; · iexact Lev
    iexact PosBar
  iintro ⟨Owe, ⟨%fp, LandP⟩, #RrecvP'⟩
  -- 3: the transfer
  ihave Blk := (Entails.of_eq (xPts_eq m c).symm) $$ Stg
  iapply (send_block m K c _ (dev2_eq c) fp (insert (SemLoc.reg barS, ()) W)) $$ [Blk LandP Owe Tsend TrecvP]
  · isplitr; · iexact Isend
    isplitr; · iexact IrecvP
    isplitl [Blk]; · iexact Blk
    isplitl [LandP]; · iexact LandP
    isplitl [Owe]; · iexact Owe
    isplitl [Tsend]; · iexact Tsend
    isplitr; · iexact Rsend
    isplitl [TrecvP]; · iexact TrecvP
    iexact RrecvP
  iintro ⟨CrSend, Owe⟩
  -- 4: the send round
  iapply (wait_send m K c (insert (SemLoc.reg barS, ()) W)) $$ [CrSend Owe PosSend]
  · isplitr; · iexact Isend
    isplitl [CrSend]; · iexact CrSend
    isplitl [Owe]; · iexact Owe
    iexact PosSend
  iintro ⟨Owe, PosSend, Blk⟩
  -- 5: the receive round
  iapply (wait_recv m K c (insert (SemLoc.dma sendS.sem, ()) (insert (SemLoc.reg barS, ()) W))) $$ [CrRecv Owe PosRecv]
  · isplitr; · iexact Irecv
    isplitl [CrRecv]; · iexact CrRecv
    isplitl [Owe]; · iexact Owe
    iexact PosRecv
  iintro ⟨Owe, PosRecv, Land⟩
  -- the two own cells close
  imod (close_own m K c 1) $$ [PosSend] with ZSend
  · isplitr; · iexact Isend
    iexact PosSend
  imod (close_own m K c 2) $$ [PosRecv] with ZRecv
  · isplitr; · iexact Irecv
    iexact PosRecv
  -- the loads and the store: the three buffers spelt through their views
  ihave Out0 := (Entails.of_eq (oPts_eq (F := F) c o0).symm) $$ Out
  unfold xPts scrPts oPts
  sl_exec
  sl_step
  -- the point's post: the landing buffer and the two counters, nothing owed, the staged block, the sum
  iapply Post
  unfold bodyPost Φ₁ Dat.owesAt Pipeline.owesWithin scrPts
  rw [show (dats m 0 c).owed t₀.succ = 0 from rfl]
  isplitl [Land ZSend ZRecv]
  · isplitl [Land]; · iexact Land
    isplitl [ZSend]; · iexact ZSend
    iexact ZRecv
  isplitl [Owe]
  · iexists (insert (SemLoc.dma recvS.sem, ()) (insert (SemLoc.dma sendS.sem, ()) (insert (SemLoc.reg barS, ()) W)))
    isplitr; · ipureintro; exact fun x _ => Set.mem_union_left _ (Set.mem_univ x)
    iexact Owe
  isplitl [Blk]
  · iexists (xblk m c); isplitr; · (ipureintro; rfl)
    iapply (Entails.of_eq (xPts_eq m c)); unfold xPts; iexact Blk
  iexists (outAt m c); isplitr; · (ipureintro; rfl)
  iapply (Entails.of_eq (oPts_eq (F := F) c (outAt m c))); unfold oPts
  rw [← stored_eq m c o0]; iexact Out0

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device c, at the one point. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.Kernel.Hand

end
-- ==== Proof.Kernel.Run.lean ====
/-
  The launch of the exchange on all thirty-two devices and what every final state holds.

  The exchange's cells are funded for all devices at once (a barrier cell and a receive cell are paid by the partner, so
  their invariants are shared by the two devices of a pair): each device's three cells are allocated from its two own
  semaphores and the runtime's barrier semaphore at zero, the duty tokens of the barrier and receive cells are dealt to
  the partner, and the units a device's cells are owed at launch come to it as credit: one unit on its barrier cell and
  the block's credit on its receive cell, both from its partner.
-/
import proofs.«900505_g7700000000000506_dist_ar_v7x_xyz2x4x4_x_m256_n256_f32_1_alg».proof.Proof.Kernel.Body

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exchCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def exchToks : Finset (GSem nD τ sig × ℕ × Unit) := Finset.univ.map ⟨tokOf, tokOf_injective⟩

def u₀ : UU :=
  (initOf (Pipeline.cells cfgs cellOf_inj) (Pipeline.launchToks cfgs cellOf_inj), initOf exchCells exchToks)

/-- The duty tokens of device c's own cells. -/
def toks (c : Dev nD) : sProp 𝕄 :=
  iprop(dutyTok EX (barCell c) 0 () ∗ dutyTok EX (sendCell c) 0 () ∗ dutyTok EX (recvCell c) 0 ())

/-- What the launch element deals device c. -/
def G (c : Dev nD) : sProp 𝕄 :=
  iprop((bigSep Finset.univ fun k : Fin 3 => roundState EX (sched m) (kcell (c, k)) 0)
    ∗ (bigSep Finset.univ fun k : Fin 3 => iprop(atPos EX (kcell (c, k)) 0 ∅ 0 ∗ reached EX (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_exch : BI.own (EX (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Fin 3 => Φ (kcell (c, k)) := by
    unfold exchCells; rw [bigSep_map, bigSep_univ_prod]; rfl
  have hT : bigSep exchToks (fun x => (dutyTok EX x.1 x.2.1 x.2.2 : sProp 𝕄)) = bigSep Finset.univ fun c : Dev nD => toks c := by
    unfold exchToks; rw [bigSep_map, bigSep_univ_prod]
    exact bigSep_congr fun c _ => by unfold toks; rw [bigSep_fin3]; rfl
  iintro HX
  imod (Rounds.fund EX (sched m) exchCells exchToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv EX (sched m) (K ck) (kcell ck))
    ∗ bigSep Finset.univ fun ck : Dev nD × Fin 3 => reached EX (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv EX (sched m) (K ck) (kcell ck) : sProp 𝕄)) ⊢ cellInv EX (sched m) (K ck) (kcell ck) :=
  bigSep_elim (Finset.mem_univ ck)
omit [FloatOps F] in
theorem reached_at (ck : Dev nD × Fin 3) :
    (bigSep Finset.univ fun ck : Dev nD × Fin 3 => (reached EX (kcell ck) 0 : sProp 𝕄)) ⊢ reached EX (kcell ck) 0 :=
  bigSep_elim (Finset.mem_univ ck)

/-- What stays with device c: its positions, and the tokens of the duties it pays. -/
def payToks (c : Dev nD) : sProp 𝕄 :=
  iprop(dutyTok EX (barCell (peer c)) 0 () ∗ dutyTok EX (recvCell (peer c)) 0 () ∗ dutyTok EX (sendCell c) 0 ())
def linear (c : Dev nD) : sProp 𝕄 :=
  iprop((atPos EX (barCell c) 0 ∅ 0 ∗ atPos EX (sendCell c) 0 ∅ 0 ∗ atPos EX (recvCell c) 0 ∅ 0) ∗ payToks c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each pair: a barrier's and a receive cell's token go to the partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok EX (barCell c) 0 () : sProp 𝕄)),
    bigSep_univ_equiv swap (fun c : Dev nD => (dutyTok EX (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv EX (sched m) κ (kcell ck))),
    bigSep_congr (s := Finset.univ) (fun (c : Dev nD) _ => bigSep_sep' Finset.univ (fun k : Fin 3 => (atPos EX (kcell (c, k)) 0 ∅ 0 : sProp 𝕄)) (fun k => reached EX (kcell (c, k)) 0)),
    bigSep_sep', ← bigSep_univ_prod (fun ck : Dev nD × Fin 3 => (reached EX (kcell ck) 0 : sProp 𝕄))]
  iintro ⟨HI, ⟨Hat, #HR⟩, Htok⟩
  ihave HK := (BI.bigSep_exists_pi Finset.univ (fun (ck : Dev nD × Fin 3) (κ : ℕ) => (cellInv EX (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos EX (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (landed m c); rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh, for any float values, from any memory with zero counters: every weakly fair execution of @main
    (the thirty-two kernels pairing up on the runtime's barrier semaphore, then exchanging their blocks) terminates, and
    every final state has each device's two arrays at the proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Hand.run_main' depends on axioms: [propext, Classical.choice, Quot.sound] -/
#guard_msgs in #print axioms run_main

end Cert.Kernel.Hand

end
-- ==== Proof.Kernel.Final.lean ====
import proofs.«900505_g7700000000000506_dist_ar_v7x_xyz2x4x4_x_m256_n256_f32_1_alg».proof.Proof.Kernel.Proto
import Idealize.ShloMosaic.Lib.Pipeline.Value

noncomputable section

namespace Cert.Kernel.Hand

open Cert.Kernel Cert.Kernel.Gen
open Idealize.ShloMosaic Idealize.ShloMosaic.TcCoe
open Idealize.ShloMosaic.Pipeline (Dat Cfg Window)

variable {F : FTy → Type} [FloatOps F]
variable (m : (ℓ : Loc nD τ sig) → Buf (Elt F) ℓ)

theorem xblk_eq (c : Dev nD) : xblk m c = m ((c : Thread nD τ).loc main_arg0) := by
  -- The window's one block is the rectangle of the array's own sizes at offsets 0 * size = 0: reading through it
  -- reads the whole buffer.
  unfold xblk
  exact Memref.read_access_unit_zero (Elt F) main_arg0 (funext fun a => Nat.zero_mul _) _ _

theorem final_arg (c : Dev nD) : (dats m 0 c).arrAt (0 : Fin 2) cfg0.N = m ((c : Thread nD τ).loc main_arg0) := by
  -- An input window is never written back: its array stays as at entry.
  exact (dats m 0 c).arrAt_in (0 : Fin 2) rfl _

theorem final_out (c : Dev nD) : (dats m 0 c).arrAt (1 : Fin 2) cfg0.N
    = k0_pay1 (m ((c : Thread nD τ).loc main_arg0)) (m ((peer c : Thread nD τ).loc main_arg0)) := by
  -- The one point writes back its block, which is the whole array: what it flushed is the sum read through that
  -- block, and every index of the array lies in it.
  refine (dats m 0 c).arrAt_eq_of_cover (1 : Fin 2) _ (fun t _ => ?_) (fun i => ⟨t₀, rfl, ?_⟩)
  · show outAt m c = _
    unfold outAt
    rw [xblk_eq, xblk_eq]
    exact (Memref.read_access_unit_zero (Elt F) main_v1 (funext fun a => Nat.zero_mul _) _ _).symm
  · rw [show ((cfg0.win (1 : Fin 2)).blk t₀).view.set = _ from View.set_slice_whole main_v1 _]
    exact View.mem_set_unit_zero (funext fun a => Nat.zero_mul _) _ i

end Cert.Kernel.Hand

end
-- ==== Proof.Kernel.Result.lean ====
/-
  What every final state of the program holds, device by device: the result array is the body's sum of the device's own
  argument block and its partner's, and the argument array is unchanged.
-/
import proofs.«900505_g7700000000000506_dist_ar_v7x_xyz2x4x4_x_m256_n256_f32_1_alg».proof.Proof.Kernel.Run
import proofs.«900505_g7700000000000506_dist_ar_v7x_xyz2x4x4_x_m256_n256_f32_1_alg».proof.Proof.Kernel.Final

noncomputable section

namespace Cert.Kernel.Hand

open Cert.Kernel Cert.Kernel.Gen
open Idealize.ShloMosaic Idealize.ShloMosaic.TcCoe Idealize.SL.Sem

variable {F : FTy → Type} [FloatOps F]

/-- Every weakly fair execution from any memory with zero counters terminates, and in every final state device c's result
    is the sum, as the body computes it, of c's block and the block of the device across the first mesh axis, its argument
    what it was. -/
theorem result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = k0_pay1 (m ((c.tc : Thread nD τ).loc main_arg0)) (m (((peer c).tc : Thread nD τ).loc main_arg0))
      ∧ r.2.mem ((c.tc : Thread nD τ).loc main_arg0) = m ((c.tc : Thread nD τ).loc main_arg0)) :=
  (θ_run defs _ _).mono (fun r h c => ⟨(h c (1 : Fin 2)).trans (final_out m c), (h c (0 : Fin 2)).trans (final_arg m c)⟩) (run_main m ρ)

/-- info: 'Cert.Kernel.Hand.result' depends on axioms: [propext, Classical.choice, Quot.sound] -/
#guard_msgs in #print axioms result

end Cert.Kernel.Hand

end
-- ==== Proof.KernelIdeal.Proto.lean ====
/-
  The exchange protocol of the all-reduce across the mesh's first axis, for one program at any float instance.

  Every device c has a partner p(c): the device with the other coordinate on the first mesh axis (an involution).
  Device c (1) signals one unit onto p(c)'s barrier semaphore, (2) waits one unit on its own, (3) copies its block of
  the argument into p(c)'s landing buffer, crediting its own send semaphore and p(c)'s receive semaphore, (4) waits for
  its send semaphore, (5) waits for its receive semaphore, (6) stores the sum of its block and the landing buffer.

  Three cells per device, one round each, one duty each:
    barrier cell of c : paid by p(c)'s signal, 1 unit; it hands c the partner's landing buffer (at some contents) and the
                        fact that the partner's receive cell has reached round 0 (what c's copy into it needs);
    send cell of c    : paid by c's own copy, the block's credit; it hands c its staged block back;
    receive cell of c : paid by p(c)'s copy, the block's credit; it hands c its landing buffer holding p(c)'s block.
  A device waits on its barrier cell while it still owes the partner's receive cell: receive cells sit above barrier
  cells in the order of levels, and nothing is owed at the two later waits.
-/
import proofs.«900505_g7700000000000506_dist_ar_v7x_xyz2x4x4_x_m256_n256_f32_1_alg».proof.Proof.Gen.KernelIdeal
import proofs.«900505_g7700000000000506_dist_ar_v7x_xyz2x4x4_x_m256_n256_f32_1_alg».proof.Proof.Gen.KernelIdeal.Skeleton
import proofs.«900505_g7700000000000506_dist_ar_v7x_xyz2x4x4_x_m256_n256_f32_1_alg».proof.Proof.Gen.KernelIdeal.Launch
import proofs.«900505_g7700000000000506_dist_ar_v7x_xyz2x4x4_x_m256_n256_f32_1_alg».proof.Proof.Partner
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the exchange's (one duty a round: duties are Unit) -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The partner -/

abbrev peer (c : Dev nD) : Dev nD := Cert.Exchange.partner c

theorem peer_peer (c : Dev nD) : peer (peer c) = c := Cert.Exchange.partner_partner c

/-- Both device chains of the body, the signal's and the copy's, name the partner. -/
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel

def swap : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .f32 := Memref.whole cc0_stg1_0
abbrev rM : Memref sig .tc .vmem S256x256 .f32 := Memref.whole cc0_scratch0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- the exchange's three: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S256x256 .f32).view.dmaCredit
theorem N_pos : 0 < N := View.dmaCredit_pos _ (by decide)

/-! ## Contents -/

/-- Device c's block of the argument, as its staging buffer holds it. -/
def xblk (c : Dev nD) : (cc0_stg0_0 : Ref sig .tc).ty.Contents (Elt F) :=
  (win0_0.blk (0 : Fin 1)).view.read (Elt F) (m ((c : Thread nD τ).loc main_arg0))

/-- What lands in device c's landing buffer: the partner's block. -/
def landed (c : Dev nD) : Buf (Elt F) ((rM : Memref sig .tc .vmem S256x256 .f32).view.loc (c : Thread nD τ)) := xblk m (peer c)

omit [FloatOps F] in
/-- A whole buffer written whole from a whole buffer holds the source's contents, whatever it held. -/
theorem landed_eq (c : Dev nD) (fd : Buf (Elt F) ((rM : Memref sig .tc .vmem S256x256 .f32).view.loc (c : Thread nD τ))) (fs : (cc0_stg0_0 : Ref sig .tc).ty.Contents (Elt F)) :
    (rM : Memref sig .tc .vmem S256x256 .f32).view.write (Elt F) fd ((xM : Memref sig .tc .vmem S256x256 .f32).view.read (Elt F) fs) Finset.univ = fs := by
  show (View.whole cc0_scratch0).write (Elt F) fd ((View.whole cc0_stg0_0).read (Elt F) fs) Finset.univ = fs
  rw [View.read_whole]
  exact View.write_whole_univ _ _ _

def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f
def xPts (c : Dev nD) : sProp 𝕄 :=
  (xM : Memref sig .tc .vmem S256x256 .f32).view.loc (c : Thread nD τ) ↦[(xM : Memref sig .tc .vmem S256x256 .f32).view.set]{fullShare} xblk m c

omit [FloatOps F] in
instance scrPts_storable (c : Dev nD) (f) : BI.Storable (upEmb : UEmb _ 𝕄) (scrPts (F := F) c f) := by unfold scrPts; infer_instance
omit [FloatOps F] in
instance xPts_storable (c : Dev nD) : BI.Storable (upEmb : UEmb _ 𝕄) (xPts (F := F) m c) := by unfold xPts; infer_instance

omit [FloatOps F] in
theorem scr_set : (rM : Memref sig .tc .vmem S256x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]
omit [FloatOps F] in
theorem xPts_eq (c : Dev nD) : xPts m c = (((c : Thread nD τ).loc cc0_stg0_0) ↦{fullShare} xblk m c : sProp 𝕄) := by
  unfold xPts; rw [View.set_whole]

/-! ## The schedule -/

/-- What the partner's signal hands device c: the partner's landing buffer and that the partner's receive cell has
    reached round 0. -/
def barPay (c : Dev nD) : sProp 𝕄 := iprop((∃ f, scrPts (peer c) f) ∗ reached EX (recvCell (peer c)) 0)
def recvPay (c : Dev nD) : sProp 𝕄 := scrPts c (landed m c)
def sendPay (c : Dev nD) : sProp 𝕄 := xPts m c

abbrev IsExch (g : GSem nD τ sig) : Prop := g.1.2 = .tc ∧ (g.2 = .reg barS ∨ g.2 = .dma sendS.sem ∨ g.2 = .dma recvS.sem)

/-- One round, round 0, one duty a cell: a barrier cell's is one unit, a send or receive cell's the block's credit. -/
def sched : Rounds.Schedule (GSem nD τ sig) Unit 𝕄 where
  duties g r := if r = 0 ∧ IsExch g then Finset.univ else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (sched (F := F) m).duties (barCell c) 0 = Finset.univ := by dsimp only [sched]; exact if_pos ⟨rfl, rfl, .inl rfl⟩
omit [FloatOps F] in
theorem duties_send : (sched (F := F) m).duties (sendCell c) 0 = Finset.univ := by dsimp only [sched]; exact if_pos ⟨rfl, rfl, .inr (.inl rfl)⟩
omit [FloatOps F] in
theorem duties_recv : (sched (F := F) m).duties (recvCell c) 0 = Finset.univ := by dsimp only [sched]; exact if_pos ⟨rfl, rfl, .inr (.inr rfl)⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
theorem expect_bar : (sched (F := F) m).expect (barCell c) 0 = 1 := by
  unfold Schedule.expect Schedule.amountOf
  rw [duties_bar, Finset.univ_unique, Finset.sum_singleton, amount_bar]
omit [FloatOps F] in
theorem expect_send : (sched (F := F) m).expect (sendCell c) 0 = N := by
  unfold Schedule.expect Schedule.amountOf
  rw [duties_send, Finset.univ_unique, Finset.sum_singleton, amount_send]
omit [FloatOps F] in
theorem expect_recv : (sched (F := F) m).expect (recvCell c) 0 = N := by
  unfold Schedule.expect Schedule.amountOf
  rw [duties_recv, Finset.univ_unique, Finset.sum_singleton, amount_recv]

omit [FloatOps F] in
theorem payload_bar (d : Unit) : (sched (F := F) m).payload (barCell c) 0 d = barPay c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]

omit [FloatOps F] in
/-- The rest of a cell's one-duty round, nothing taken, is the duty's payload. -/
theorem rest_bar : bigSep ((sched (F := F) m).duties (barCell c) 0 \ ∅) (fun d => (sched (F := F) m).payload (barCell c) 0 d) = barPay c := by
  rw [Finset.sdiff_empty, duties_bar, Finset.univ_unique, bigSep_singleton, payload_bar]
omit [FloatOps F] in
theorem rest_send : bigSep ((sched (F := F) m).duties (sendCell c) 0 \ ∅) (fun d => (sched (F := F) m).payload (sendCell c) 0 d) = sendPay m c := by
  rw [Finset.sdiff_empty, duties_send, Finset.univ_unique, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, Finset.univ_unique, bigSep_singleton, payload_recv]

end Sched

/-! ## What each device owes at launch; the levels -/

/-- Device c owes the partner's receive cell the block's credit and the partner's barrier cell one unit (the signal,
    issued first, peels the last summand). -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A staging cell, or the send cell, may be waited on whatever of its launch debt a device still owes: they sit at
    level 0, below barrier and receive cells. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes the partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c: its block plus the partner's. -/
def outAt (c : Dev nD) : (cc0_stg1_0 : Ref sig .tc).ty.Contents (Elt F) := k0_pay1 (xblk m c) (xblk m (peer c))

/-- The cells' invariants device c's body opens, under the names K the launch allocated them at: its own three, the
    partner's barrier cell (its signal) and the partner's receive cell (its copy). -/
def invs (K : Dev nD × Fin 3 → ℕ) (c : Dev nD) : sProp 𝕄 :=
  iprop(cellInv EX (sched m) (K (c, 0)) (barCell c) ∗ cellInv EX (sched m) (K (c, 1)) (sendCell c) ∗ cellInv EX (sched m) (K (c, 2)) (recvCell c)
    ∗ cellInv EX (sched m) (K (peer c, 0)) (barCell (peer c)) ∗ cellInv EX (sched m) (K (peer c, 2)) (recvCell (peer c)))

instance invs_persistent (K : Dev nD × Fin 3 → ℕ) (c : Dev nD) : BI.Persistent (invs m K c) := by unfold invs; infer_instance

/-- The exchange's ghost state device c starts from: the invariants; its positions at round 0 of its three cells; the
    reached-marks of the two cells of the partner it pays and of its own send and receive cells; the three duty tokens it
    pays with: the partner's barrier duty, the partner's receive duty, its own send duty. -/
def ghost (K : Dev nD × Fin 3 → ℕ) (c : Dev nD) : sProp 𝕄 :=
  iprop(invs m K c
    ∗ atPos EX (barCell c) 0 ∅ 0 ∗ atPos EX (sendCell c) 0 ∅ 0 ∗ atPos EX (recvCell c) 0 ∅ 0
    ∗ reached EX (barCell (peer c)) 0 ∗ reached EX (recvCell (peer c)) 0 ∗ reached EX (sendCell c) 0 ∗ reached EX (recvCell c) 0
    ∗ dutyTok EX (barCell (peer c)) 0 () ∗ dutyTok EX (recvCell (peer c)) 0 () ∗ dutyTok EX (sendCell c) 0 ())

/-- What device c's body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, scrPts c f)
/-- After the point: the landing buffer holding the partner's block, the two own cells at zero, closed (the barrier cell
    is the runtime's: nothing to hand back). -/
def Φ₁ (c : Dev nD) : sProp 𝕄 := iprop(scrPts c (landed m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Hand

end
-- ==== Proof.KernelIdeal.Body.lean ====
/-
  One device's body of the exchange, run once at a symbolic device c: from the exchange's ghost state, the staged block
  and the output's staging buffer to the landing buffer holding the partner's block, the output's staging buffer
  holding the sum of the two blocks, and the device's two own cells closed at zero.
-/
import proofs.«900505_g7700000000000506_dist_ar_v7x_xyz2x4x4_x_m256_n256_f32_1_alg».proof.Proof.KernelIdeal.Proto
import Idealize.ShloMosaic.Lib.Pipeline.FrameBody
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 3 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xblk m c) ∗ stg c cc0_stg1_0 (outAt m c))

/-! The schedule's tables with each payload spelt as the points-to it is, the partner's cells already resolved through
    the involution. -/

omit [FloatOps F] in
theorem pay_bar (c : Dev nD) (d : Unit) : (sched (F := F) m).payload (barCell c) 0 d
    = iprop((∃ f, ((View.loc ((peer c : Dev nD) : Thread nD τ) (Memref.whole cc0_scratch0).view) ↦{fullShare} f : sProp 𝕄)) ∗ reached EX (recvCell (peer c)) 0) := by
  rw [payload_bar]; unfold barPay scrPts; rw [scr_set]
omit [FloatOps F] in
theorem pay_bar_peer (c : Dev nD) (d : Unit) : (sched (F := F) m).payload (barCell (peer c)) 0 d
    = iprop((∃ f, ((View.loc ((c : Dev nD) : Thread nD τ) (Memref.whole cc0_scratch0).view) ↦{fullShare} f : sProp 𝕄)) ∗ reached EX (recvCell c) 0) := by
  rw [pay_bar, peer_peer]
omit [FloatOps F] in
theorem pay_send (c : Dev nD) (d : Unit) : (sched (F := F) m).payload (sendCell c) 0 d
    = ((View.loc ((c : Dev nD) : Thread nD τ) (Memref.whole cc0_stg0_0).view) ↦{fullShare} xblk m c : sProp 𝕄) := by
  rw [payload_send]; unfold sendPay xPts; rw [View.set_whole]
omit [FloatOps F] in
theorem pay_recv (c : Dev nD) (d : Unit) : (sched (F := F) m).payload (recvCell c) 0 d
    = ((View.loc ((c : Dev nD) : Thread nD τ) (Memref.whole cc0_scratch0).view) ↦{fullShare} xblk m (peer c) : sProp 𝕄) := by
  rw [payload_recv]; unfold recvPay scrPts landed; rw [scr_set]
omit [FloatOps F] in
theorem pay_recv_peer (c : Dev nD) (d : Unit) : (sched (F := F) m).payload (recvCell (peer c)) 0 d
    = ((View.loc ((peer c : Dev nD) : Thread nD τ) (Memref.whole cc0_scratch0).view) ↦{fullShare} xblk m c : sProp 𝕄) := by
  rw [pay_recv, peer_peer]

/-- The output's staging buffer spelt through its view. -/
def oPts (c : Dev nD) (g : Buf (Elt F) ((oM : Memref sig .tc .vmem S256x256 .f32).view.loc (c : Thread nD τ))) : sProp 𝕄 :=
  (oM : Memref sig .tc .vmem S256x256 .f32).view.loc (c : Thread nD τ) ↦[(oM : Memref sig .tc .vmem S256x256 .f32).view.set]{fullShare} g
omit [FloatOps F] in
theorem oPts_eq (c : Dev nD) (g : Buf (Elt F) ((c : Thread nD τ).loc cc0_stg1_0)) :
    oPts c g = (((c : Thread nD τ).loc cc0_stg1_0) ↦{fullShare} g : sProp 𝕄) := by unfold oPts; rw [View.set_whole]

omit [FloatOps F] in
theorem unit_mem_univ (d : Unit) : d ∈ (Finset.univ : Finset Unit) := Finset.mem_univ d

attribute [local sl_rounds] duties_bar duties_send duties_recv amount_bar amount_send amount_recv expect_bar expect_send expect_recv
  pay_bar_peer pay_recv_peer pay_bar pay_send pay_recv unit_mem_univ

/-! ## The five remote effects, each over this protocol's cells

Each lemma below is one effect of the body read against the protocol's table: which duty it pays or which round it
takes, what it hands over or receives, and what the device owes before and after. -/

omit [FloatOps F] in
/-- The staged block and the landing buffer have one shape and element type: their transfers carry the same credit. -/
theorem credit_x : (xM : Memref sig .tc .vmem S256x256 .f32).view.dmaCredit = N := rfl

/-- Effect 1, the signal. Device c pays the one duty of its partner's barrier cell: it hands the partner its own landing
    buffer, at whatever it holds, and the fact that its own receive cell stands at round 0, so that the partner may copy
    into it. The unit comes off what c owes; the receive credit stays owed. -/
theorem signal_partner (c : Dev nD) (n : ℕ) (hn : n = 1) (f0 : Buf (Elt F) ((rM : Memref sig .tc .vmem S256x256 .f32).view.loc (c : Thread nD τ))) (W : Waits sig Unit)
    {α : Type} {Q : α → sProp 𝕄} {k : PUnit → Prog (TpuEff nD τ sig (Elt F) Λ₀ .tc) α} :
    iprop(cellInv EX (sched m) (K (peer c, 0)) (barCell (peer c))
        ∗ owes (c : Thread nD τ) (tallyAt (recvCell (peer c)) () N + tallyAt (barCell (peer c)) () 1) W
        ∗ dutyTok EX (barCell (peer c)) 0 () ∗ scrPts c f0 ∗ reached EX (recvCell c) 0 ∗ reached EX (barCell (peer c)) 0)
      ⊢ iprop((owes (c : Thread nD τ) (tallyAt (recvCell (peer c)) () N) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c : Thread nD τ) barS n) k) Q) := by
  subst hn
  have hpay : iprop(scrPts c f0 ∗ reached EX (recvCell c) 0) ⊢ (sched (F := F) m).payload (barCell (peer c)) 0 () := by
    rw [payload_bar]; unfold barPay; rw [peer_peer]
    iintro ⟨Hb, Hr⟩
    isplitl [Hb]; · iexists f0; iexact Hb
    iexact Hr
  iintro ⟨HI, HO, Ht, Hb, Hr, Hrb⟩
  iapply (Rounds.wp_signal 𝒱₀ EX (sched m) (c : Thread nD τ) none (dst := (peer c : Thread nD τ)) (sem := barS) (r := 0) (d := ()) (κ := K (peer c, 0))
    (by rw [duties_bar]; exact Finset.mem_univ ()) (amount_bar m (peer c) ()) () (tallyAt (recvCell (peer c)) () N) rfl)
  isplitl [HI]; · iexact HI
  isplitl [HO]; · iexact HO
  isplitl [Ht]; · iexact Ht
  isplitl [Hb Hr]
  · iapply hpay; isplitl [Hb] <;> iassumption
  iexact Hrb

/-- Effect 2, the wait on the own barrier cell. The device takes the whole of the cell's one round with the unit its
    partner owed it at launch; it still owes the partner's receive cell, which sits above barrier cells in the order of
    levels. It comes back with the partner's landing buffer and the round of the partner's receive cell. -/
theorem wait_barrier (c : Dev nD) (n : ℕ) (hn : n = 1) (W : Waits sig Unit)
    {α : Type} {Q : α → sProp 𝕄} {k : PUnit → Prog (TpuEff nD τ sig (Elt F) Λ₀ .tc) α} :
    iprop(cellInv EX (sched m) (K (c, 0)) (barCell c) ∗ cred (tallyAt (barCell c) () 1)
        ∗ owes (c : Thread nD τ) (tallyAt (recvCell (peer c)) () N) W ∗ levAts L lv ∗ atPos EX (barCell c) 0 ∅ 0)
      ⊢ iprop(((owes (c : Thread nD τ) (tallyAt (recvCell (peer c)) () N) (insert (SemLoc.reg barS, ()) W)
              ∗ (∃ fp, scrPts (peer c) fp) ∗ reached EX (recvCell (peer c)) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨HI, Hc, HO, Hlev, Hat⟩ Hk
  iapply (Rounds.wp_wait_rest_token 𝒱₀ EX (sched m) (c : Thread nD τ) none (sm := .reg barS) (k' := 1) (κ := K (c, 0))
    (fun Kc => wpE_semWait_eq (defs := defs₀ (F := F)) (𝒱 := 𝒱₀) (c := (c : Thread nD τ)) (bd := none) (E := Set.univ) Kc) (Set.mem_univ _) ()
    (O := tallyAt (recvCell (peer c)) () N) (W := W) (R := 0) (m := 0) (T := ∅) (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, -, -, Hpay⟩
  ihave Hp := (Entails.of_eq (rest_bar m c)) $$ Hpay
  unfold barPay
  icases Hp with ⟨Hb, Hr⟩
  ihave H := Hk $$ [HO Hb Hr]
  · isplitl [HO]; · iexact HO
    isplitl [Hb] <;> iassumption
  iexact H

/-- Effect 3, the transfer. The device chain of the copy names the partner (the target is a variable equal to it). The
    copy pays two duties at once: the device's own send duty with the staged block, which comes back at the send wait,
    and the partner's receive duty with the partner's landing buffer rewritten whole from the staged block: a whole buffer
    written whole holds the source, so the payload is the landing buffer holding this device's block. The receive credit
    comes off what the device owes, which is then nothing; the send credit comes to it as a token. -/
theorem send_block (c t : Dev nD) (ht : t = peer c)
    {hsc : (rM : Memref sig (Dev.tc t : Thread nD τ).2.kind .vmem S256x256 .f32).view.ref.isScScratch = false}
    {hsrc : (xM : Memref sig .tc .vmem S256x256 .f32).view.WordExact} {hdst : (rM : Memref sig .tc .vmem S256x256 .f32).view.WordExact}
    {hsem : DmaTarget.Typed .vmem (.dma recvS.sem) (.remote (Dev.tc t : Thread nD τ) (rM : Memref sig .tc .vmem S256x256 .f32) (.dma sendS.sem) hsc)}
    (fp : Buf (Elt F) ((rM : Memref sig .tc .vmem S256x256 .f32).view.loc (peer c : Thread nD τ))) (W : Waits sig Unit)
    {α : Type} {Q : α → sProp 𝕄} {k : PUnit → Prog (TpuEff nD τ sig (Elt F) Λ₀ .tc) α} :
    iprop(cellInv EX (sched m) (K (c, 1)) (sendCell c) ∗ cellInv EX (sched m) (K (peer c, 2)) (recvCell (peer c))
        ∗ xPts m c ∗ scrPts (peer c) fp ∗ owes (c : Thread nD τ) (tallyAt (recvCell (peer c)) () N) W
        ∗ dutyTok EX (sendCell c) 0 () ∗ reached EX (sendCell c) 0 ∗ dutyTok EX (recvCell (peer c)) 0 () ∗ reached EX (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.remote (Dev.tc t : Thread nD τ) rM (.dma sendS.sem) hsc) (.dma recvS.sem) hsrc hdst hsem) k) Q) := by
  subst ht
  have hland : ((rM : Memref sig .tc .vmem S256x256 .f32).view.loc (peer c : Thread nD τ) ↦[(rM : Memref sig .tc .vmem S256x256 .f32).view.set]{fullShare}
        ((rM : Memref sig .tc .vmem S256x256 .f32).view.write (Elt F) fp ((xM : Memref sig .tc .vmem S256x256 .f32).view.read (Elt F) (xblk m c)) Finset.univ) : sProp 𝕄)
      ⊢ (sched (F := F) m).payload (recvCell (peer c)) 0 () := by
    rw [payload_recv, landed_eq (peer c) fp (xblk m c)]; unfold recvPay scrPts landed; rw [peer_peer]
  unfold xPts scrPts
  exact Rounds.wp_send_pointsTo 𝒱₀ EX (sched m) (c : Thread nD τ) none (c' := (peer c : Thread nD τ)) (src := xM) (dst := rM)
    (fs := xblk m c) (fd := fp) (r₁ := 0) (r₂ := 0) (d₁ := ()) (d₂ := ()) (κ₁ := K (c, 1)) (κ₂ := K (peer c, 2))
    (by rw [duties_send]; exact Finset.mem_univ ()) (by rw [duties_recv]; exact Finset.mem_univ ())
    () () N rfl (amount_send m c ()) (amount_recv m (peer c) ()) 0 (zero_add _).symm (W := W)
    (by rw [payload_send]; unfold sendPay xPts; exact BI.Entails.refl _) hland

/-- Effect 4, the wait on the own send cell, owing nothing: the whole of its one round, paid by the credit the transfer
    returned; the staged block comes back. -/
theorem wait_send (c : Dev nD) (W : Waits sig Unit)
    {hs : (rM : Memref sig .tc .vmem S256x256 .f32).view.WordExact} {hd : (xM : Memref sig .tc .vmem S256x256 .f32).view.WordExact}
    {α : Type} {Q : α → sProp 𝕄} {k : PUnit → Prog (TpuEff nD τ sig (Elt F) Λ₀ .tc) α} :
    iprop(cellInv EX (sched m) (K (c, 1)) (sendCell c) ∗ cred (tallyAt (sendCell c) () N) ∗ owes (c : Thread nD τ) 0 W ∗ atPos EX (sendCell c) 0 ∅ 0)
      ⊢ iprop(((owes (c : Thread nD τ) 0 (insert (SemLoc.dma sendS.sem, ()) W) ∗ atPos EX (sendCell c) 1 ∅ 0 ∗ xPts m c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sendS.sem rM xM hs hd) k) Q) := by
  iintro ⟨HI, Hc, HO, Hat⟩ Hk
  iapply (Rounds.wp_wait_rest_token 𝒱₀ EX (sched m) (c : Thread nD τ) none (sm := .dma sendS.sem) (k' := (xM : Memref sig .tc .vmem S256x256 .f32).view.dmaCredit) (κ := K (c, 1))
    (fun Kc => wpE_waitDma2_eq (defs := defs₀ (F := F)) (𝒱 := 𝒱₀) (c := (c : Thread nD τ)) (bd := none) (E := Set.univ) Kc) (Set.mem_univ _) ()
    (O := 0) (W := W) (R := 0) (m := 0) (T := ∅) (by rw [Nat.zero_add, expect_send, credit_x])) $$ [HI Hc HO Hat]
  · isplitl [HI]; · iexact HI
    isplitl [Hc]; · rw [credit_x]; iexact Hc
    isplitl [HO]; · iexact HO
    isplitr; · rw [MayWait_zero]; iempintro
    iexact Hat
  iintro ⟨HO, Hat, -, Hpay⟩
  ihave Hp := (Entails.of_eq (rest_send m c)) $$ Hpay
  unfold sendPay
  ihave H := Hk $$ [HO Hat Hp]
  · isplitl [HO]; · iexact HO
    isplitl [Hat] <;> iassumption
  iexact H

/-- Effect 5, the wait on the own receive cell, owing nothing: the whole of its one round, paid by the credit the
    partner owed at launch; the landing buffer comes back holding the partner's block. -/
theorem wait_recv (c : Dev nD) (W : Waits sig Unit)
    {hs : (xM : Memref sig .tc .vmem S256x256 .f32).view.WordExact} {hd : (rM : Memref sig .tc .vmem S256x256 .f32).view.WordExact}
    {α : Type} {Q : α → sProp 𝕄} {k : PUnit → Prog (TpuEff nD τ sig (Elt F) Λ₀ .tc) α} :
    iprop(cellInv EX (sched m) (K (c, 2)) (recvCell c) ∗ cred (tallyAt (recvCell c) () N) ∗ owes (c : Thread nD τ) 0 W ∗ atPos EX (recvCell c) 0 ∅ 0)
      ⊢ iprop(((owes (c : Thread nD τ) 0 (insert (SemLoc.dma recvS.sem, ()) W) ∗ atPos EX (recvCell c) 1 ∅ 0 ∗ scrPts c (landed m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 recvS.sem xM rM hs hd) k) Q) := by
  iintro ⟨HI, Hc, HO, Hat⟩ Hk
  iapply (Rounds.wp_wait_rest_token 𝒱₀ EX (sched m) (c : Thread nD τ) none (sm := .dma recvS.sem) (k' := N) (κ := K (c, 2))
    (fun Kc => wpE_waitDma2_eq (defs := defs₀ (F := F)) (𝒱 := 𝒱₀) (c := (c : Thread nD τ)) (bd := none) (E := Set.univ) Kc) (Set.mem_univ _) ()
    (O := 0) (W := W) (R := 0) (m := 0) (T := ∅) (by rw [Nat.zero_add, expect_recv])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c)) $$ Hpay
  unfold recvPay
  ihave H := Hk $$ [HO Hat Hp]
  · isplitl [HO]; · iexact HO
    isplitl [Hat] <;> iassumption
  iexact H

omit [FloatOps F] in
/-- A send or receive cell has no round after its first: its owner, having taken that round whole, closes it and keeps
    the counter at zero. -/
theorem close_own (c : Dev nD) (j : Fin 3) :
    iprop(cellInv EX (sched (F := F) m) (K (c, j)) (kcell (c, j)) ∗ atPos EX (kcell (c, j)) 1 ∅ 0) ⊢ (|={Set.univ}=> semVal (kcell (c, j)) 0 : sProp 𝕄) :=
  Rounds.cell_close EX (sched m) (Set.mem_univ _) (fun h => h) (duties_later m (kcell (c, j)))

omit [FloatOps F] in
theorem zero_off : (![0, 0] : Fin 2 → Nat) = fun _ => 0 := funext fun a => by fin_cases a <;> rfl

/-- What the one store leaves in the output's staging buffer. The store writes the whole buffer (the rectangle of the
    buffer's own sizes at offsets zero), so the buffer holds the stored value whatever it held; the stored value is the
    body's sum of its two loads, each of a whole buffer through that same rectangle, hence of the staged block and of the
    landing buffer's contents, which are the partner's block. -/
theorem stored_eq (c : Dev nD) (o : (cc0_stg1_0 : Ref sig .tc).ty.Contents (Elt F)) :
    (oM : Memref sig .tc .vmem S256x256 .f32).view.writes (Elt F) o
      [⟨Rect.unit (s := S256x256) ![0, 0] S256x256.size inb_S256x256_S256x256_0_0,
        k0_pay1
          ((xM : Memref sig .tc .vmem S256x256 .f32).view.readAt (Elt F) (Rect.unit (s := S256x256) ![0, 0] S256x256.size inb_S256x256_S256x256_0_0).toLoadRect (xblk m c))
          ((rM : Memref sig .tc .vmem S256x256 .f32).view.readAt (Elt F) (Rect.unit (s := S256x256) ![0, 0] S256x256.size inb_S256x256_S256x256_0_0).toLoadRect (landed m c))⟩]
      = outAt m c := by
  have hwhole : ∀ g : (cc0_stg1_0 : Ref sig .tc).ty.Contents (Elt F), (oM : Memref sig .tc .vmem S256x256 .f32).view.read (Elt F) g = g :=
    fun g => View.read_whole _ g
  refine (hwhole _).symm.trans ?_
  rw [View.read_writes_eq_canon _ _ _ (fun y => ⟨_, List.mem_singleton.mpr rfl, by
      rw [Rect.mem_set_unit]; intro a; subst_vars; constructor <;> simp [zero_off]⟩),
    View.canon_unit_zero zero_off]
  unfold outAt landed
  simp only [View.readAt_eq_ld, Memref.view_whole, View.read_whole, View.ld_unit_zero (S := S256x256) zero_off]

set_option maxHeartbeats 1600000 in
/-- The body on device c, read against the protocol: pay the partner's barrier duty, take the own barrier round, send the
    block, take the send round and the receive round, close the two own cells, then add the two blocks into the output's
    staging buffer. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId, dev1_eq c]
  unfold bodyPre ghost invs
  iintro ⟨⟨⟨⟨⟨#Ibar, #Isend, #Irecv, #IbarP, #IrecvP⟩, PosBar, PosSend, PosRecv, #RbarP, #RrecvP, #Rsend, #Rrecv, TbarP, TrecvP, Tsend⟩,
      CrBar, CrRecv, #Lev, ⟨%f0, Land⟩⟩, Owe, ⟨%d0, %x0, %hx0, Stg⟩, ⟨%d1, %o0, %ho0, Out⟩⟩, Post⟩
  -- the staged block is the device's block: the input window is fetched at the one point
  have hblk : x0 = xblk m c := by rw [hx0]; unfold Dat.before; rw [if_pos (fetch_0 t₀)]; rfl
  subst hblk
  unfold Dat.owesAt Pipeline.owesWithin
  icases Owe with ⟨%W, %hW, Owe⟩
  rw [show (dats m 0 c).owed t₀.castSucc = O₀ c from rfl]
  unfold O₀
  -- 1: the signal
  iapply (signal_partner m K c _ (by decide) f0 W) $$ [Owe TbarP Land]
  · isplitr; · iexact IbarP
    isplitl [Owe]; · iexact Owe
    isplitl [TbarP]; · iexact TbarP
    isplitl [Land]; · iexact Land
    isplitr; · iexact Rrecv
    iexact RbarP
  iintro Owe
  -- 2: the barrier round
  iapply (wait_barrier m K c _ (by decide) W) $$ [CrBar Owe PosBar]
  · isplitr; · iexact Ibar
    isplitl [CrBar]; · iexact CrBar
    isplitl [Owe]; · iexact Owe
    isplitr; · iexact Lev
    iexact PosBar
  iintro ⟨Owe, ⟨%fp, LandP⟩, #RrecvP'⟩
  -- 3: the transfer
  ihave Blk := (Entails.of_eq (xPts_eq m c).symm) $$ Stg
  iapply (send_block m K c _ (dev2_eq c) fp (insert (SemLoc.reg barS, ()) W)) $$ [Blk LandP Owe Tsend TrecvP]
  · isplitr; · iexact Isend
    isplitr; · iexact IrecvP
    isplitl [Blk]; · iexact Blk
    isplitl [LandP]; · iexact LandP
    isplitl [Owe]; · iexact Owe
    isplitl [Tsend]; · iexact Tsend
    isplitr; · iexact Rsend
    isplitl [TrecvP]; · iexact TrecvP
    iexact RrecvP
  iintro ⟨CrSend, Owe⟩
  -- 4: the send round
  iapply (wait_send m K c (insert (SemLoc.reg barS, ()) W)) $$ [CrSend Owe PosSend]
  · isplitr; · iexact Isend
    isplitl [CrSend]; · iexact CrSend
    isplitl [Owe]; · iexact Owe
    iexact PosSend
  iintro ⟨Owe, PosSend, Blk⟩
  -- 5: the receive round
  iapply (wait_recv m K c (insert (SemLoc.dma sendS.sem, ()) (insert (SemLoc.reg barS, ()) W))) $$ [CrRecv Owe PosRecv]
  · isplitr; · iexact Irecv
    isplitl [CrRecv]; · iexact CrRecv
    isplitl [Owe]; · iexact Owe
    iexact PosRecv
  iintro ⟨Owe, PosRecv, Land⟩
  -- the two own cells close
  imod (close_own m K c 1) $$ [PosSend] with ZSend
  · isplitr; · iexact Isend
    iexact PosSend
  imod (close_own m K c 2) $$ [PosRecv] with ZRecv
  · isplitr; · iexact Irecv
    iexact PosRecv
  -- the loads and the store: the three buffers spelt through their views
  ihave Out0 := (Entails.of_eq (oPts_eq (F := F) c o0).symm) $$ Out
  unfold xPts scrPts oPts
  sl_exec
  sl_step
  -- the point's post: the landing buffer and the two counters, nothing owed, the staged block, the sum
  iapply Post
  unfold bodyPost Φ₁ Dat.owesAt Pipeline.owesWithin scrPts
  rw [show (dats m 0 c).owed t₀.succ = 0 from rfl]
  isplitl [Land ZSend ZRecv]
  · isplitl [Land]; · iexact Land
    isplitl [ZSend]; · iexact ZSend
    iexact ZRecv
  isplitl [Owe]
  · iexists (insert (SemLoc.dma recvS.sem, ()) (insert (SemLoc.dma sendS.sem, ()) (insert (SemLoc.reg barS, ()) W)))
    isplitr; · ipureintro; exact fun x _ => Set.mem_union_left _ (Set.mem_univ x)
    iexact Owe
  isplitl [Blk]
  · iexists (xblk m c); isplitr; · (ipureintro; rfl)
    iapply (Entails.of_eq (xPts_eq m c)); unfold xPts; iexact Blk
  iexists (outAt m c); isplitr; · (ipureintro; rfl)
  iapply (Entails.of_eq (oPts_eq (F := F) c (outAt m c))); unfold oPts
  rw [← stored_eq m c o0]; iexact Out0

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device c, at the one point. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdeal.Hand

end
-- ==== Proof.KernelIdeal.Run.lean ====
/-
  The launch of the exchange on all thirty-two devices and what every final state holds.

  The exchange's cells are funded for all devices at once (a barrier cell and a receive cell are paid by the partner, so
  their invariants are shared by the two devices of a pair): each device's three cells are allocated from its two own
  semaphores and the runtime's barrier semaphore at zero, the duty tokens of the barrier and receive cells are dealt to
  the partner, and the units a device's cells are owed at launch come to it as credit: one unit on its barrier cell and
  the block's credit on its receive cell, both from its partner.
-/
import proofs.«900505_g7700000000000506_dist_ar_v7x_xyz2x4x4_x_m256_n256_f32_1_alg».proof.Proof.KernelIdeal.Body

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exchCells : Finset (GSem nD τ sig) := Finset.univ.map ⟨kcell, kcell_injective⟩

/-- A device's own cells' duty tokens as minted: one a cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def exchToks : Finset (GSem nD τ sig × ℕ × Unit) := Finset.univ.map ⟨tokOf, tokOf_injective⟩

def u₀ : UU :=
  (initOf (Pipeline.cells cfgs cellOf_inj) (Pipeline.launchToks cfgs cellOf_inj), initOf exchCells exchToks)

/-- The duty tokens of device c's own cells. -/
def toks (c : Dev nD) : sProp 𝕄 :=
  iprop(dutyTok EX (barCell c) 0 () ∗ dutyTok EX (sendCell c) 0 () ∗ dutyTok EX (recvCell c) 0 ())

/-- What the launch element deals device c. -/
def G (c : Dev nD) : sProp 𝕄 :=
  iprop((bigSep Finset.univ fun k : Fin 3 => roundState EX (sched m) (kcell (c, k)) 0)
    ∗ (bigSep Finset.univ fun k : Fin 3 => iprop(atPos EX (kcell (c, k)) 0 ∅ 0 ∗ reached EX (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_exch : BI.own (EX (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : Fin 3 => Φ (kcell (c, k)) := by
    unfold exchCells; rw [bigSep_map, bigSep_univ_prod]; rfl
  have hT : bigSep exchToks (fun x => (dutyTok EX x.1 x.2.1 x.2.2 : sProp 𝕄)) = bigSep Finset.univ fun c : Dev nD => toks c := by
    unfold exchToks; rw [bigSep_map, bigSep_univ_prod]
    exact bigSep_congr fun c _ => by unfold toks; rw [bigSep_fin3]; rfl
  iintro HX
  imod (Rounds.fund EX (sched m) exchCells exchToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv EX (sched m) (K ck) (kcell ck))
    ∗ bigSep Finset.univ fun ck : Dev nD × Fin 3 => reached EX (kcell ck) 0)

instance records_persistent (K : Dev nD × Fin 3 → ℕ) : BI.Persistent (records m K) := by unfold records; infer_instance

omit [FloatOps F] in
theorem inv_at (K : Dev nD × Fin 3 → ℕ) (ck : Dev nD × Fin 3) :
    (bigSep Finset.univ fun ck : Dev nD × Fin 3 => (cellInv EX (sched m) (K ck) (kcell ck) : sProp 𝕄)) ⊢ cellInv EX (sched m) (K ck) (kcell ck) :=
  bigSep_elim (Finset.mem_univ ck)
omit [FloatOps F] in
theorem reached_at (ck : Dev nD × Fin 3) :
    (bigSep Finset.univ fun ck : Dev nD × Fin 3 => (reached EX (kcell ck) 0 : sProp 𝕄)) ⊢ reached EX (kcell ck) 0 :=
  bigSep_elim (Finset.mem_univ ck)

/-- What stays with device c: its positions, and the tokens of the duties it pays. -/
def payToks (c : Dev nD) : sProp 𝕄 :=
  iprop(dutyTok EX (barCell (peer c)) 0 () ∗ dutyTok EX (recvCell (peer c)) 0 () ∗ dutyTok EX (sendCell c) 0 ())
def linear (c : Dev nD) : sProp 𝕄 :=
  iprop((atPos EX (barCell c) 0 ∅ 0 ∗ atPos EX (sendCell c) 0 ∅ 0 ∗ atPos EX (recvCell c) 0 ∅ 0) ∗ payToks c)

omit [FloatOps F] in
theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across each pair: a barrier's and a receive cell's token go to the partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok EX (barCell c) 0 () : sProp 𝕄)),
    bigSep_univ_equiv swap (fun c : Dev nD => (dutyTok EX (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv EX (sched m) κ (kcell ck))),
    bigSep_congr (s := Finset.univ) (fun (c : Dev nD) _ => bigSep_sep' Finset.univ (fun k : Fin 3 => (atPos EX (kcell (c, k)) 0 ∅ 0 : sProp 𝕄)) (fun k => reached EX (kcell (c, k)) 0)),
    bigSep_sep', ← bigSep_univ_prod (fun ck : Dev nD × Fin 3 => (reached EX (kcell ck) 0 : sProp 𝕄))]
  iintro ⟨HI, ⟨Hat, #HR⟩, Htok⟩
  ihave HK := (BI.bigSep_exists_pi Finset.univ (fun (ck : Dev nD × Fin 3) (κ : ℕ) => (cellInv EX (sched m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos EX (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (landed m c); rw [← scrPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh, for any float values, from any memory with zero counters: every weakly fair execution of @main
    (the thirty-two kernels pairing up on the runtime's barrier semaphore, then exchanging their blocks) terminates, and
    every final state has each device's two arrays at the proof data's final contents. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exch m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

end Cert.KernelIdeal.Hand

end
-- ==== Proof.KernelIdeal.Final.lean ====
import proofs.«900505_g7700000000000506_dist_ar_v7x_xyz2x4x4_x_m256_n256_f32_1_alg».proof.Proof.KernelIdeal.Proto
import Idealize.ShloMosaic.Lib.Pipeline.Value

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ)

theorem xblk_eq (c : Dev nD) : xblk m c = m ((c : Thread nD τ).loc main_arg0) := by
  -- The window's one block is the rectangle of the array's own sizes at offsets 0 * size = 0: reading through it
  -- reads the whole buffer.
  unfold xblk
  exact Memref.read_access_unit_zero (Elt F) main_arg0 (funext fun a => Nat.zero_mul _) _ _

theorem final_arg (c : Dev nD) : (dats m 0 c).arrAt (0 : Fin 2) cfg0.N = m ((c : Thread nD τ).loc main_arg0) := by
  -- An input window is never written back: its array stays as at entry.
  exact (dats m 0 c).arrAt_in (0 : Fin 2) rfl _

theorem final_out (c : Dev nD) : (dats m 0 c).arrAt (1 : Fin 2) cfg0.N
    = k0_pay1 (m ((c : Thread nD τ).loc main_arg0)) (m ((peer c : Thread nD τ).loc main_arg0)) := by
  -- The one point writes back its block, which is the whole array: what it flushed is the sum read through that
  -- block, and every index of the array lies in it.
  refine (dats m 0 c).arrAt_eq_of_cover (1 : Fin 2) _ (fun t _ => ?_) (fun i => ⟨t₀, rfl, ?_⟩)
  · show outAt m c = _
    unfold outAt
    rw [xblk_eq, xblk_eq]
    exact (Memref.read_access_unit_zero (Elt F) main_v1 (funext fun a => Nat.zero_mul _) _ _).symm
  · rw [show ((cfg0.win (1 : Fin 2)).blk t₀).view.set = _ from View.set_slice_whole main_v1 _]
    exact View.mem_set_unit_zero (funext fun a => Nat.zero_mul _) _ i

end Cert.KernelIdeal.Hand

end
-- ==== Proof.KernelIdeal.Result.lean ====
/-
  What every final state of the program holds, device by device: the result array is the body's sum of the device's own
  argument block and its partner's, and the argument array is unchanged.
-/
import proofs.«900505_g7700000000000506_dist_ar_v7x_xyz2x4x4_x_m256_n256_f32_1_alg».proof.Proof.KernelIdeal.Run
import proofs.«900505_g7700000000000506_dist_ar_v7x_xyz2x4x4_x_m256_n256_f32_1_alg».proof.Proof.KernelIdeal.Final

noncomputable section

namespace Cert.KernelIdeal.Hand

open Cert.KernelIdeal Cert.KernelIdeal.Gen
open Idealize.ShloMosaic Idealize.ShloMosaic.TcCoe Idealize.SL.Sem

variable {F : FTy → Type} [FloatOps F]

/-- Every weakly fair execution from any memory with zero counters terminates, and in every final state device c's result
    is the sum, as the body computes it, of c's block and the block of the device across the first mesh axis, its argument
    what it was. -/
theorem result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = k0_pay1 (m ((c.tc : Thread nD τ).loc main_arg0)) (m (((peer c).tc : Thread nD τ).loc main_arg0))
      ∧ r.2.mem ((c.tc : Thread nD τ).loc main_arg0) = m ((c.tc : Thread nD τ).loc main_arg0)) :=
  (θ_run defs _ _).mono (fun r h c => ⟨(h c (1 : Fin 2)).trans (final_out m c), (h c (0 : Fin 2)).trans (final_arg m c)⟩) (run_main m ρ)

/-- info: 'Cert.KernelIdeal.Hand.result' depends on axioms: [propext, Classical.choice, Quot.sound] -/
#guard_msgs in #print axioms result

end Cert.KernelIdeal.Hand

end
-- ==== Proof.Bridge.lean ====
/-
  The two sides meet: on every device the body's sum of the device's block and its partner's block is the reference's sum
  of the whole array's two halves. The devices of a pair sit in the two halves of the first mesh axis, so the two blocks are
  rows 0..255 and rows 256..511 in one order or the other, and a sum of extended reals does not depend on the order.
-/
import proofs.«900505_g7700000000000506_dist_ar_v7x_xyz2x4x4_x_m256_n256_f32_1_alg».proof.Defs
import proofs.«900505_g7700000000000506_dist_ar_v7x_xyz2x4x4_x_m256_n256_f32_1_alg».proof.Proof.Gen.KernelIdeal.Skeleton
import proofs.«900505_g7700000000000506_dist_ar_v7x_xyz2x4x4_x_m256_n256_f32_1_alg».proof.Proof.Gen.ReferenceIdeal.Run
import proofs.«900505_g7700000000000506_dist_ar_v7x_xyz2x4x4_x_m256_n256_f32_1_alg».proof.Proof.Gen.ReferenceIdeal.Read
import proofs.«900505_g7700000000000506_dist_ar_v7x_xyz2x4x4_x_m256_n256_f32_1_alg».proof.Proof.Partner
import Idealize.ShloMosaic.Lib.Layout
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.Layout

/-- Along the rows (cut by the mesh's first axis, of size 2, the other two axes of sizes 4 and 4 inside it) a
    device holds the block named by its first mesh coordinate: device `c` of 32 holds block `c / 16`. -/
theorem rows_block (c : Fin 32) : ((meshBlock [2, 4, 4] ![[0], []] c) 0).val = c.val / 16 := by
  revert c; decide

/-- The columns are not cut: one block. -/
theorem cols_block (c : Fin 32) : ((meshBlock [2, 4, 4] ![[0], []] c) 1).val = 0 := rfl

/-- The block a device in half `k` of the first mesh axis holds, read at `i`, is the whole array read at row
    `k * 256 + i 0`, column `i 1`: the element the reference's sum over its leading axis meets at `k`. -/
theorem block_read (X : (⟨2, ![512, 256]⟩ : Shape).Idx → Elt Ideal .f32) (c : Fin 32) (k : Fin 2)
    (hk : c.val / 16 = k.val) (i : (⟨2, ![256, 256]⟩ : Shape).Idx) :
    (blockN ⟨2, ![256, 256]⟩ ⟨2, ![512, 256]⟩ (meshBlock [2, 4, 4] ![[0], []] c) X) i
      = Cert.ReferenceIdeal.Read.val_main_v0 (F := Ideal) X (Cert.ReferenceIdeal.Read.idx_main_v1 i k) := by
  rw [Cert.ReferenceIdeal.Read.val_main_v0_apply, blockN_apply]
  refine congrArg X (funext fun a => Fin.ext ?_)
  have h0 : (i 0).val < 256 := (i 0).isLt
  have h1 : (i 1).val < 256 := (i 1).isLt
  match a with
  | ⟨0, _⟩ =>
    show ((meshBlock [2, 4, 4] ![[0], []] c) 0).val * 256 + (i 0).val
        = ((k.val * 256 + (i 0).val) * 256 + (i 1).val) / 256
    rw [rows_block c, hk]; omega
  | ⟨1, _⟩ =>
    show ((meshBlock [2, 4, 4] ![[0], []] c) 1).val * 256 + (i 1).val
        = ((k.val * 256 + (i 0).val) * 256 + (i 1).val) % 256
    rw [cols_block c]; omega

/-- Each device adds the block it holds and the block of the device across the
    first mesh axis; the two devices sit in the two halves of that axis, so the two blocks are rows 0..255 and
    rows 256..511 of the whole array, in one order or the other, and the sum of extended reals does not
    depend on the order. -/
theorem exchange_sum (X : (⟨2, ![512, 256]⟩ : Shape).Idx → Elt Ideal .f32) (c : Fin 32) :
    Cert.KernelIdeal.Gen.k0_pay1 (F := Ideal)
        (blockN ⟨2, ![256, 256]⟩ ⟨2, ![512, 256]⟩ (meshBlock [2, 4, 4] ![[0], []] c) X)
        (blockN ⟨2, ![256, 256]⟩ ⟨2, ![512, 256]⟩ (meshBlock [2, 4, 4] ![[0], []] (Cert.Exchange.partner c)) X)
      = Cert.ReferenceIdeal.Read.val_main_v1 (F := Ideal) X := by
  funext i
  rw [Cert.ReferenceIdeal.Read.val_main_v1_apply, Fin.sum_univ_two, Cert.ReferenceIdeal.Read.val_main_cst_apply]
  unfold Cert.KernelIdeal.Gen.k0_pay1
  show addf (shapeCast Cert.KernelIdeal.S256x256 _ _) _ i = _
  rw [shapeCast_self, ValueIdx.addf_apply]
  show _ = Ideal.ofBits .f32 0x00000000#32 + _
  rw [Ideal.ofBits_zero_f32, zero_add]
  have hp := Cert.Exchange.partner_div c
  have hc : c.val / 16 = 0 ∨ c.val / 16 = 1 := by have := c.isLt; omega
  rcases hc with hc | hc
  · rw [block_read X c 0 hc, block_read X (Cert.Exchange.partner c) 1 (by rw [hp, hc]; rfl)]
  · rw [block_read X c 1 hc, block_read X (Cert.Exchange.partner c) 0 (by rw [hp, hc]; rfl)]
    exact add_comm (G := EReal) _ _

end Cert.Bridge

end
-- ==== Proof.lean ====
/-
  An all-reduce across the first axis of a 2 x 4 x 4 mesh against the sum of the whole array's two halves.

  Device c holds rows 256 (c / 16) .. 256 (c / 16) + 255 of a 512 x 256 array. It meets the device across the first mesh
  axis on a barrier, sends it its block, receives the other block and stores the sum of the two; the one-device reference
  reshapes the array to 2 x 256 x 256 and sums over the leading axis. Over the extended reals both are block 0 + block 1
  (addition is commutative; the reference's zero initial value adds nothing), on every device.

  The run of the exchange on all devices (the protocol, one device's body, the launch) is proved once for any float
  instance and used three times: the word-level program's frame, the idealized program's frame, and, with its result read
  as the body's sum of the two blocks, the value claim. The reference's run is its generated one.
-/
import proofs.«900505_g7700000000000506_dist_ar_v7x_xyz2x4x4_x_m256_n256_f32_1_alg».proof.Defs
import proofs.«900505_g7700000000000506_dist_ar_v7x_xyz2x4x4_x_m256_n256_f32_1_alg».proof.Proof.Gen.Kernel
import proofs.«900505_g7700000000000506_dist_ar_v7x_xyz2x4x4_x_m256_n256_f32_1_alg».proof.Proof.Gen.KernelIdeal
import proofs.«900505_g7700000000000506_dist_ar_v7x_xyz2x4x4_x_m256_n256_f32_1_alg».proof.Proof.Gen.ReferenceIdeal
import proofs.«900505_g7700000000000506_dist_ar_v7x_xyz2x4x4_x_m256_n256_f32_1_alg».proof.Proof.Gen.Pre_finite_inputs_Kernel
import proofs.«900505_g7700000000000506_dist_ar_v7x_xyz2x4x4_x_m256_n256_f32_1_alg».proof.Proof.Gen.Pre_finite_inputs_ReferenceIdeal
import proofs.«900505_g7700000000000506_dist_ar_v7x_xyz2x4x4_x_m256_n256_f32_1_alg».proof.Proof.Gen.ReferenceIdeal.Run
import proofs.«900505_g7700000000000506_dist_ar_v7x_xyz2x4x4_x_m256_n256_f32_1_alg».proof.Proof.Gen.ReferenceIdeal.Read
import proofs.«900505_g7700000000000506_dist_ar_v7x_xyz2x4x4_x_m256_n256_f32_1_alg».proof.Proof.Kernel.Result
import proofs.«900505_g7700000000000506_dist_ar_v7x_xyz2x4x4_x_m256_n256_f32_1_alg».proof.Proof.KernelIdeal.Result
import proofs.«900505_g7700000000000506_dist_ar_v7x_xyz2x4x4_x_m256_n256_f32_1_alg».proof.Proof.Bridge
import Idealize.ShloMosaic.Adequacy
import Idealize.ShloMosaic.Init

noncomputable section

namespace Cert.Proof

open Idealize.ShloMosaic Idealize.SL.Sem

/-- The word-level program runs and leaves its arguments: its run with the result dropped. -/
theorem frame_kernel : Cert.frame_Kernel := fun m ρ _ =>
  (θ_run (Cert.Kernel.defs (F := Bits)) _ _).mono (fun _ h c => (h c).2) (Cert.Kernel.Hand.result (F := Bits) m ρ)

/-- The same of the idealized program. -/
theorem frame_kernelIdeal : Cert.frame_KernelIdeal := fun m ρ _ =>
  (θ_run (Cert.KernelIdeal.defs (F := Ideal)) _ _).mono (fun _ h c => (h c).2) (Cert.KernelIdeal.Hand.result (F := Ideal) m ρ)

/-- The reference's generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the sum of the whole array's two halves: the reference by its run read at an index, each device by
    its own block plus its partner's, the blocks being the halves the two devices' first mesh coordinates name. -/
theorem algebraic : Cert.algebraic_KernelIdeal_ReferenceIdeal := by
  intro m ρ m' ρ' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Hand.result (F := Ideal) m ρ)
    rw [hagree c, hagree (Cert.KernelIdeal.Hand.peer c)]
    exact Cert.Bridge.exchange_sum _ c
  · exact (θ_run Cert.ReferenceIdeal.defs _ _).mono
      (fun _ h => ⟨(h 0).1.trans (Cert.ReferenceIdeal.Read.val_main_v1_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_kernel, frame_kernelIdeal, frame_reference, preserves, algebraic⟩

end Cert.Proof

end
